-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096 : S_.BroadcastsInDim S4096 (![] : Fin 0 → Fin S4096.rank)
  bcast_S_S4096x32000 : S_.BroadcastsInDim S4096x32000 (![] : Fin 0 → Fin S4096x32000.rank)
  reducesTo_S4096x32000_S_d0_1 : S4096x32000.ReducesTo [0, 1] S_
  h_S_ : 0 < S_.numel
  reducesTo_S4096_S_d0 : S4096.ReducesTo [0] S_

variable [Facts]

def fn {F : FTy → Type} [FloatOps F] (main_arg0 : FVec F S4096x32000 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .slt main_arg1 main_v0
  let main_c_0 : IVec S_ 32 := constantI S_ 32 32000#32
  let main_v2 : IVec S4096 32 := broadcastInDim S4096 ![] bcast_S_S4096 main_c_0
  let main_v3 : IVec S4096 32 := addi main_arg1 main_v2
  let main_v4 : IVec S4096 32 := select main_v1 main_v3 main_arg1
  let main_v5 : FVec F S4096x32000 .f32 := Host.absf main_arg0
  let main_cst : FVec F S_ .f32 := constant S_ .f32 0x7F800000#32
  let main_v6 : FVec F S4096x32000 .f32 := broadcastInDim S4096x32000 ![] bcast_S_S4096x32000 main_cst
  let main_v7 : IVec S4096x32000 1 := cmpf .olt main_v5 main_v6
  let main_c_1 : IVec S_ 1 := constantI S_ 1 1#1
  let main_v8 : IVec S_ 1 := (fun x v => Host.reduce IntOp.andi x v reducesTo_S4096x32000_S_d0_1 h_S_) main_v7 main_c_1
  let main_c_2 : IVec S_ 32 := constantI S_ 32 0#32
  let main_v9 : IVec S4096 32 := broadcastInDim S4096 ![] bcast_S_S4096 main_c_2
  let main_v10 : IVec S4096 1 := cmpi .sge main_v4 main_v9
  let main_c_3 : IVec S_ 32 := constantI S_ 32 31999#32
  let main_v11 : IVec S4096 32 := broadcastInDim S4096 ![] bcast_S_S4096 main_c_3
  let main_v12 : IVec S4096 1 := cmpi .sle main_v4 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x32000 : Shape := ⟨2, ![4096, 32000]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x3 : Shape := ⟨2, ![4096, 3]⟩
abbrev S64x32000 : Shape := ⟨2, ![64, 32000]⟩
abbrev S64x1 : Shape := ⟨2, ![64, 1]⟩
abbrev S64x3 : Shape := ⟨2, ![64, 3]⟩
abbrev S64 : Shape := ⟨1, ![64]⟩
abbrev S1x4096 : Shape := ⟨2, ![1, 4096]⟩
abbrev S3x4096 : Shape := ⟨2, ![3, 4096]⟩

abbrev nBuf : Space → Nat
  | .hbm => 36
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x3, .f32⟩
  | .hbm, ⟨26, _⟩ => ⟨S4096x1, .f32⟩
  | .hbm, ⟨27, _⟩ => ⟨S4096, .f32⟩
  | .hbm, ⟨28, _⟩ => ⟨S4096x1, .f32⟩
  | .hbm, ⟨29, _⟩ => ⟨S4096, .f32⟩
  | .hbm, ⟨30, _⟩ => ⟨S4096x1, .f32⟩
  | .hbm, ⟨31, _⟩ => ⟨S4096, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S3x4096, .f32⟩
  | .local _ .vmem, ⟨0, _⟩ => ⟨S64x32000, .f32⟩
  | .local _ .vmem, ⟨1, _⟩ => ⟨S64x32000, .f32⟩
  | .local _ .vmem, ⟨2, _⟩ => ⟨S64x1, .f32⟩
  | .local _ .vmem, ⟨3, _⟩ => ⟨S64x1, .f32⟩
  | .local _ .vmem, ⟨4, _⟩ => ⟨S64x3, .f32⟩
  | .local _ .vmem, ⟨5, _⟩ => ⟨S64x3, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S64x32000_S64x32000_0_0 : ∀ a, (![0, 0] : Fin 2 → Nat) a + S64x32000.size a ≤ S64x32000.size a
  h_S64x32000 : 0 < S64x32000.numel
  reduces_S64x32000_S64 : S64x32000.Reduces [1] S64
  shapeCasts_S64_S64x1 : S64.ShapeCasts S64x1
  broadcasts_S64x1_S64x32000 : S64x1.Broadcasts S64x32000
  inb_S64x1_S64x1_0_0 : ∀ a, (![0, 0] : Fin 2 → Nat) a + S64x1.size a ≤ S64x1.size a
  h_S64x1 : 0 < S64x1.numel
  shapeCasts_S64x1_S64x1 : S64x1.ShapeCasts S64x1
  concatenates_S64x1_S64x1_S64x1_S64x3_d1 : Shape.Concatenates [S64x1, S64x1, S64x1] S64x3 1
  inb_S64x3_S64x3_0_0 : ∀ a, (![0, 0] : Fin 2 → Nat) a + S64x3.size a ≤ S64x3.size a
  h_S64x3 : 0 < S64x3.numel
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  bcast_S4096_S1x4096_1 : S4096.BroadcastsInDim S1x4096 (![1] : Fin 1 → Fin S1x4096.rank)
  concatenates_S1x4096_S1x4096_S1x4096_S3x4096_d0 : Shape.Concatenates [S1x4096, S1x4096, S1x4096] S3x4096 0
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .f32 = 32 ∨ (Rect.block (s := S4096x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x3.size a ≤ S4096x3.size a
  hwx0_2 : ∀ i : grid0.Coords, EltTy.bits .f32 = 32 ∨ (Rect.block (s := S4096x3) S64x3.size (cc0_transform_2 i) (hinb0_2 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1x4096 : Shape := ⟨2, ![1, 4096]⟩
abbrev S3x4096 : Shape := ⟨2, ![3, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096x1, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x32000, .f32⟩
  | .hbm, ⟨15, _⟩ => ⟨S4096x32000, .f32⟩
  | .hbm, ⟨16, _⟩ => ⟨S4096x1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S_, .i32⟩
  | .hbm, ⟨21, _⟩ => ⟨S4096x1, .i32⟩
  | .hbm, ⟨22, _⟩ => ⟨S4096x1, .i32⟩
  | .hbm, ⟨23, _⟩ => ⟨S4096x1, .i32⟩
  | .hbm, ⟨24, _⟩ => ⟨S4096x1x1, .i32⟩
  | .hbm, ⟨25, _⟩ => ⟨S1, .i32⟩
  | .hbm, ⟨26, _⟩ => ⟨S_, .i32⟩
  | .hbm, ⟨27, _⟩ => ⟨S4096x1x1, .i32⟩
  | .hbm, ⟨28, _⟩ => ⟨S4096x1x1, .i1⟩
  | .hbm, ⟨29, _⟩ => ⟨S1x1x1, .i32⟩
  | .hbm, ⟨30, _⟩ => ⟨S4096x1x1, .i32⟩
  | .hbm, ⟨31, _⟩ => ⟨S4096x1x1, .i1⟩
  | .hbm, ⟨32, _⟩ => ⟨S4096x1x1, .i1⟩
  | .hbm, ⟨33, _⟩ => ⟨S_, .i1⟩
  | .hbm, ⟨34, _⟩ => ⟨S4096x1, .i1⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S4096, .f32⟩
  | .hbm, ⟨40, _⟩ => ⟨S4096, .f32⟩
  | .hbm, ⟨41, _⟩ => ⟨S4096x32000, .f32⟩
  | .hbm, ⟨42, _⟩ => ⟨S4096x32000, .f32⟩
  | .hbm, ⟨43, _⟩ => ⟨S_, .f32⟩
  | .hbm, ⟨44, _⟩ => ⟨S4096, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S3x4096, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_cst : Ref sig .tc := ⟨.hbm, 36, rfl⟩
abbrev main_call0_v14 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  bcast_S4096_S1x4096_1 : S4096.BroadcastsInDim S1x4096 (![1] : Fin 1 → Fin S1x4096.rank)
  concatenates_S1x4096_S1x4096_S1x4096_S3x4096_d0 : Shape.Concatenates [S1x4096, S1x4096, S1x4096] S3x4096 0
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.KFrame.lean ====
/-
  The frame run of `Kernel`'s @main: the host lines before the one region (the index column, then the chain that
  reads one logit per row), the region over its 64 grid points, and the host lines after it (three column slices of
  the [4096, 3] result, each flattened, given a leading unit axis and joined into [3, 4096]). The region's body loads
  its two input blocks whole, computes, and stores its output block whole, so after the body the output's staging
  buffer holds the body's one stored value, a function of the two input blocks alone (`out0_2`); the input buffers
  keep their blocks. With that as the proof data, the library's launch theorem for a region followed by host lines
  gives the run: every array of the region ends at what the write-backs leave, every other buffer at what the later
  lines compute from those, and the two argument arrays end as launched (`frame`).
-/
import proofs.«420277_j18923625906267_3_alg».proof.Proof.Gen.Kernel.Launch
import proofs.«420277_j18923625906267_3_alg».proof.Proof.Gen.Kernel.Skeleton
import proofs.«420277_j18923625906267_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two stretches of host lines before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The later lines touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 1000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, StableHlo.TRef.reshape, Finset.mem_singleton]
    repeat' apply And.intro
    all_goals exact StableHlo.devRef_ne_of_ne (by decide)))

set_option maxHeartbeats 1000000 in
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, StableHlo.TRef.reshape, Finset.mem_singleton]
    repeat' apply And.intro
    all_goals exact StableHlo.devRef_ne_of_ne (by decide)))

/-- No host line after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's post, the two argument arrays end as launched: the logits are the first window's
    array, an input, which ends at its region-entry contents; the index array is staged by no window and written by
    no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's accesses -/

abbrev rX : Rect S64x32000 := Rect.unit (s := S64x32000) ![0, 0] S64x32000.size inb_S64x32000_S64x32000_0_0
abbrev rL : Rect S64x1 := Rect.unit (s := S64x1) ![0, 0] S64x1.size inb_S64x1_S64x1_0_0
abbrev rO : Rect S64x3 := Rect.unit (s := S64x3) ![0, 0] S64x3.size inb_S64x3_S64x3_0_0

/-! ## What the body leaves in the output window's buffer -/

/-- The output's staging buffer after the body, from the two input blocks: its one store, of the body's value. -/
def out0_2 (x0 : Vec F S64x32000 .f32) (x1 : Vec F S64x1 .f32) : Vec F S64x3 .f32 :=
  View.canon [⟨rO, k0_pay1 (View.ld x0 rX) (View.ld x1 rL)⟩]

/-- The one store covers the buffer. -/
theorem cover0_2 (p0 : Vec F S64x3 .f32) (y : S64x3.Idx) :
    ∃ pc ∈ ([⟨rO, p0⟩] : List (View.Piece (Elt F) S64x3 .f32)), y ∈ pc.1.set :=
  View.cover_of_tiled [⟨rO, p0⟩] S64x3.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel (c : Dev nD) (E : Set ℕ) (i : grid0.Coords) (arg1 : Memref sig .tc .vmem S64x32000 .f32) (harg1 : arg1.IsWhole)
    (arg2 : Memref sig .tc .vmem S64x1 .f32) (harg2 : arg2.IsWhole) (arg3 : Memref sig .tc .vmem S64x3 .f32) (harg3 : arg3.IsWhole)
    (x0 : Vec F S64x32000 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them; after the body at point `t` each
    input's buffer at its block and the output's at `out0_2` of the two input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the write-backs leave and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KIFrame.lean ====
/-
  The frame run of `KernelIdeal`'s @main: the host lines before the one region (the index column, then the chain that
  reads one logit per row), the region over its 64 grid points, and the host lines after it (three column slices of
  the [4096, 3] result, each flattened, given a leading unit axis and joined into [3, 4096]). The region's body loads
  its two input blocks whole, computes, and stores its output block whole, so after the body the output's staging
  buffer holds the body's one stored value, a function of the two input blocks alone (`out0_2`); the input buffers
  keep their blocks. With that as the proof data, the library's launch theorem for a region followed by host lines
  gives the run: every array of the region ends at what the write-backs leave, every other buffer at what the later
  lines compute from those, and the two argument arrays end as launched (`frame`).
-/
import proofs.«420277_j18923625906267_3_alg».proof.Proof.Gen.KernelIdeal.Launch
import proofs.«420277_j18923625906267_3_alg».proof.Proof.Gen.KernelIdeal.Skeleton
import proofs.«420277_j18923625906267_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two stretches of host lines before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host lines after it: it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-- The later lines touch the region's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

set_option maxHeartbeats 1000000 in
/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, StableHlo.TRef.reshape, Finset.mem_singleton]
    repeat' apply And.intro
    all_goals exact StableHlo.devRef_ne_of_ne (by decide)))

set_option maxHeartbeats 1000000 in
/-- Nor `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.TRef.nullary, StableHlo.TRef.unary, StableHlo.TRef.binary, StableHlo.TRef.ternary, StableHlo.TRef.reshape, Finset.mem_singleton]
    repeat' apply And.intro
    all_goals exact StableHlo.devRef_ne_of_ne (by decide)))

/-- No host line after the region writes `main_arg1`, and it is no array of the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's post, the two argument arrays end as launched: the logits are the first window's
    array, an input, which ends at its region-entry contents; the index array is staged by no window and written by
    no later line. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c)⟩) h

/-! ## The body's accesses -/

abbrev rX : Rect S64x32000 := Rect.unit (s := S64x32000) ![0, 0] S64x32000.size inb_S64x32000_S64x32000_0_0
abbrev rL : Rect S64x1 := Rect.unit (s := S64x1) ![0, 0] S64x1.size inb_S64x1_S64x1_0_0
abbrev rO : Rect S64x3 := Rect.unit (s := S64x3) ![0, 0] S64x3.size inb_S64x3_S64x3_0_0

/-! ## What the body leaves in the output window's buffer -/

/-- The output's staging buffer after the body, from the two input blocks: its one store, of the body's value. -/
def out0_2 (x0 : Vec F S64x32000 .f32) (x1 : Vec F S64x1 .f32) : Vec F S64x3 .f32 :=
  View.canon [⟨rO, k0_pay1 (View.ld x0 rX) (View.ld x1 rL)⟩]

/-- The one store covers the buffer. -/
theorem cover0_2 (p0 : Vec F S64x3 .f32) (y : S64x3.Idx) :
    ∃ pc ∈ ([⟨rO, p0⟩] : List (View.Piece (Elt F) S64x3 .f32)), y ∈ pc.1.set :=
  View.cover_of_tiled [⟨rO, p0⟩] S64x3.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel (c : Dev nD) (E : Set ℕ) (i : grid0.Coords) (arg1 : Memref sig .tc .vmem S64x32000 .f32) (harg1 : arg1.IsWhole)
    (arg2 : Memref sig .tc .vmem S64x1 .f32) (harg2 : arg2.IsWhole) (arg3 : Memref sig .tc .vmem S64x3 .f32) (harg3 : arg3.IsWhole)
    (x0 : Vec F S64x32000 .f32) (x1 : Vec F S64x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__kernel i arg1 harg1 arg2 harg2 arg3 harg3) K := by
  simp only [cc0__kernel_eq_skeleton]; unfold cc0__kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them; after the body at point `t` each
    input's buffer at its block and the output's at `out0_2` of the two input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the region at what the write-backs leave and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.RowLaw.lean ====
/-
  One row of logits on the extended reals: the row's maximum, the shifted entries, their exponentials and the
  exponentials' sum, and the three statistics each program forms from them. The kernel's spelling keeps the
  reciprocal of the sum as a factor and the logarithm of the sum as a subtrahend; the reference's spelling divides
  every exponential by the sum and takes logarithms of the quotients. For a row of finite entries the two
  spellings agree: that is this module's content.
-/
import Idealize.ShloMosaic.PureOps.Ideal
import Idealize.ShloMosaic.PureOps.Ideal.Laws
import Mathlib.Data.Finset.Fold
import Mathlib.Data.EReal.Operations
import Mathlib.Algebra.BigOperators.Group.Finset.Basic
import Mathlib.Algebra.BigOperators.Ring.Finset
import Mathlib.Algebra.Order.BigOperators.Group.Finset
import Mathlib.Analysis.Complex.Exponential
import Mathlib.Analysis.SpecialFunctions.Log.Basic

noncomputable section

namespace Cert.RowLaw

open Idealize.ShloMosaic

variable {n : Nat}

/-- The row's maximum, as a fold of `max` from the bottom element. -/
def rmax (xr : Fin n → EReal) : EReal := (Finset.univ : Finset (Fin n)).fold max ⊥ xr
/-- An entry less the row's maximum. -/
def sh (xr : Fin n → EReal) (k : Fin n) : EReal := xr k - rmax xr
/-- The sum of the exponentials of the shifted entries. -/
def ssum (xr : Fin n → EReal) : EReal := ∑ k, Ideal.exp (sh xr k)

/-- The kernel's spelling of the probability of the entry whose value is `lv`. -/
def kpdf (xr : Fin n → EReal) (lv : EReal) : EReal := Ideal.exp (lv - rmax xr) * Ideal.div 1 (ssum xr)
/-- The kernel's spelling of that probability's logarithm. -/
def klogp (xr : Fin n → EReal) (lv : EReal) : EReal := (lv - rmax xr) - Ideal.log (ssum xr)
/-- The kernel's spelling of the row's sum of p log p. -/
def kent (xr : Fin n → EReal) : EReal :=
  Ideal.div 1 (ssum xr) * (∑ k, Ideal.exp (sh xr k) * sh xr k) - Ideal.log (ssum xr)

/-- The reference's spelling of entry `k`'s probability: its exponential over the sum (the sum taken from a zero). -/
def rprob (xr : Fin n → EReal) (k : Fin n) : EReal := Ideal.div (Ideal.exp (sh xr k)) (0 + ssum xr)
/-- The reference's spelling of the row's sum of p log p (taken from a zero). -/
def rent (xr : Fin n → EReal) : EReal := 0 + ∑ k, rprob xr k * Ideal.log (rprob xr k)

/-- Every entry of the row is a real number. -/
def Finite (xr : Fin n → EReal) : Prop := ∀ k, xr k ≠ ⊥ ∧ xr k ≠ ⊤

/-- A finite sum of real numbers, read in the extended reals, is the sum of the readings. -/
private theorem coe_sum (f : Fin n → ℝ) : ((∑ k, f k : ℝ) : EReal) = ∑ k, (f k : EReal) := by
  induction (Finset.univ : Finset (Fin n)) using Finset.induction_on with
  | empty => simp
  | insert a s ha ih => rw [Finset.sum_insert ha, Finset.sum_insert ha, EReal.coe_add, ih]

/-- The maximum of a nonempty row of real numbers is a real number: it lies strictly between the two infinities,
    above the bottom because the row's first entry does, below the top because every entry and the fold's seed do. -/
private theorem rmax_real (hn : 0 < n) (xr : Fin n → EReal) (hx : Finite xr) : ∃ M : ℝ, rmax xr = (M : EReal) := by
  have hbot : rmax xr ≠ ⊥ := by
    refine ne_of_gt ((Finset.lt_fold_max _).mpr (Or.inr ⟨⟨0, hn⟩, Finset.mem_univ _, ?_⟩))
    exact bot_lt_iff_ne_bot.mpr (hx _).1
  have htop : rmax xr ≠ ⊤ := by
    refine ne_of_lt ((Finset.fold_max_lt _).mpr ⟨bot_lt_top, fun k _ => ?_⟩)
    exact lt_top_iff_ne_top.mpr (hx k).2
  exact ⟨(rmax xr).toReal, (EReal.coe_toReal htop hbot).symm⟩

/-- The row in real terms: real shifted entries `s k` and a positive real `S`, the sum of their exponentials,
    such that `sh xr k` reads `s k` and `ssum xr` reads `S`. -/
private theorem real_form (hn : 0 < n) (xr : Fin n → EReal) (hx : Finite xr) :
    ∃ (s : Fin n → ℝ) (S : ℝ), 0 < S ∧ (∑ k, Real.exp (s k)) = S ∧ (∀ k, sh xr k = (s k : EReal)) ∧
      ssum xr = (S : EReal) := by
  obtain ⟨M, hM⟩ := rmax_real hn xr hx
  have hsh : ∀ k, sh xr k = (((xr k).toReal - M : ℝ) : EReal) := fun k => by
    rw [sh, hM, EReal.coe_sub, EReal.coe_toReal (hx k).2 (hx k).1]
  haveI : Nonempty (Fin n) := ⟨⟨0, hn⟩⟩
  refine ⟨fun k => (xr k).toReal - M, _, Finset.sum_pos (fun k _ => Real.exp_pos _) Finset.univ_nonempty, rfl, hsh, ?_⟩
  rw [ssum, coe_sum]
  exact Finset.sum_congr rfl fun k _ => by rw [hsh k, Ideal.exp_coe]

/-- The reciprocal factor: one over a sum that reads a positive real `S` reads `1 / S`. -/
private theorem div_one_coe {S : ℝ} (hS : 0 < S) : Ideal.div 1 (S : EReal) = ((1 / S : ℝ) : EReal) := by
  rw [Ideal.div_coe hS.ne', one_mul]

/-- The logarithm of a positive real, read in the extended reals. -/
private theorem log_coe_pos {r : ℝ} (hr : 0 < r) : Ideal.log (r : EReal) = (Real.log r : EReal) := by
  rw [Ideal.log_coe, if_neg (not_le.mpr hr)]

/-- The reference's probability of entry `k` in real terms. -/
private theorem rprob_coe {xr : Fin n → EReal} {s : Fin n → ℝ} {S : ℝ} (hS : 0 < S)
    (hsh : ∀ k, sh xr k = (s k : EReal)) (hsum : ssum xr = (S : EReal)) (k : Fin n) :
    rprob xr k = ((Real.exp (s k) * (1 / S) : ℝ) : EReal) := by
  rw [rprob, zero_add, hsum, hsh, Ideal.exp_coe, Ideal.div_coe hS.ne', EReal.coe_mul]

/-- The logarithm of the reference's probability in real terms: the shifted entry less the logarithm of the sum. -/
private theorem log_rprob_coe {xr : Fin n → EReal} {s : Fin n → ℝ} {S : ℝ} (hS : 0 < S)
    (hsh : ∀ k, sh xr k = (s k : EReal)) (hsum : ssum xr = (S : EReal)) (k : Fin n) :
    Ideal.log (rprob xr k) = ((s k - Real.log S : ℝ) : EReal) := by
  have hpos : 0 < Real.exp (s k) * (1 / S) := mul_pos (Real.exp_pos _) (one_div_pos.mpr hS)
  rw [rprob_coe hS hsh hsum, log_coe_pos hpos, Real.log_mul (Real.exp_pos _).ne' (one_div_pos.mpr hS).ne',
    Real.log_exp, one_div, Real.log_inv, sub_eq_add_neg]

theorem ofBits_one : Ideal.ofBits .f32 0x3F800000#32 = (1 : EReal) := by
  simp [Ideal.ofBits, Ideal.ieee, -EReal.coe_mul]
  norm_num
theorem ofBits_neg_inf : Ideal.ofBits .f32 0xFF800000#32 = (⊥ : EReal) := by
  simp [Ideal.ofBits, Ideal.ieee]

theorem kpdf_eq (hn : 0 < n) (xr : Fin n → EReal) (hx : Finite xr) (c : Fin n) : kpdf xr (xr c) = rprob xr c := by
  obtain ⟨s, S, hS, -, hsh, hsum⟩ := real_form hn xr hx
  rw [rprob_coe hS hsh hsum]
  show Ideal.exp (sh xr c) * Ideal.div 1 (ssum xr) = _
  rw [hsum, hsh, Ideal.exp_coe, div_one_coe hS, EReal.coe_mul]
theorem klogp_eq (hn : 0 < n) (xr : Fin n → EReal) (hx : Finite xr) (c : Fin n) :
    klogp xr (xr c) = Ideal.log (rprob xr c) := by
  obtain ⟨s, S, hS, -, hsh, hsum⟩ := real_form hn xr hx
  rw [log_rprob_coe hS hsh hsum]
  show sh xr c - Ideal.log (ssum xr) = _
  rw [hsum, hsh, log_coe_pos hS, EReal.coe_sub]
theorem kent_eq (hn : 0 < n) (xr : Fin n → EReal) (hx : Finite xr) : kent xr = rent xr := by
  obtain ⟨s, S, hS, hS', hsh, hsum⟩ := real_form hn xr hx
  have hl : kent xr = (((1 / S) * (∑ k, Real.exp (s k) * s k) - Real.log S : ℝ) : EReal) := by
    rw [kent, hsum, div_one_coe hS, log_coe_pos hS, EReal.coe_sub, EReal.coe_mul, coe_sum]
    congr 2
    exact Finset.sum_congr rfl fun k _ => by rw [hsh k, Ideal.exp_coe, EReal.coe_mul]
  have hr : rent xr = ((∑ k, Real.exp (s k) * (1 / S) * (s k - Real.log S) : ℝ) : EReal) := by
    rw [rent, zero_add, coe_sum]
    exact Finset.sum_congr rfl fun k _ => by
      rw [log_rprob_coe hS hsh hsum, rprob_coe hS hsh hsum, ← EReal.coe_mul]
  rw [hl, hr]
  congr 1
  have h1 : ∀ k, Real.exp (s k) * (1 / S) * (s k - Real.log S)
      = 1 / S * (Real.exp (s k) * s k) - Real.log S / S * Real.exp (s k) := fun k => by ring
  rw [Finset.sum_congr rfl fun k _ => h1 k, Finset.sum_sub_distrib, ← Finset.mul_sum, ← Finset.mul_sum, hS',
    div_mul_cancel₀ _ hS.ne']

end Cert.RowLaw

end
-- ==== Proof.KIPayload.lean ====
/-
  The kernel body's one stored value, read at an index. The body takes a [64, 32000] block of logits and a [64, 1]
  block holding one gathered logit per row; per row it forms the maximum, the shifted entries, their exponentials
  and the exponentials' sum, the reciprocal and the logarithm of the sum, and stores three columns: the gathered
  entry's probability, its logarithm, and the row's sum of p log p. Read at row `r` and column 0, 1, 2, the stored
  value is the kernel's spelling of those statistics (Proof/RowLaw.lean) of row `r` of the block.
-/
import proofs.«420277_j18923625906267_3_alg».proof.Proof.Gen.KernelIdeal.Skeleton
import proofs.«420277_j18923625906267_3_alg».proof.Proof.RowLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The index a reduction along the columns inserts coordinate `k` into, over row `r`, is `(r, k)`. -/
private theorem lift_row (r : Fin 64) (k : Fin 32000) :
    reduces_S64x32000_S64.lift (ix1 r) k = ix2 r k := by
  funext a
  match a with
  | ⟨0, _⟩ => exact Fin.ext rfl
  | ⟨1, _⟩ => exact Fin.ext rfl

/-- The row maximum, read at row `r`: the fold of `max` from the bottom element over the row's entries. -/
private theorem rowmax_apply (x : FVec Ideal S64x32000 .f32) (r : Fin 64) :
    multiReduction (F := Ideal) .maximumf [1] S64 x 0xFF800000#32 reduces_S64x32000_S64 (.inl rfl) rfl (ix1 r)
      = Cert.RowLaw.rmax (fun k : Fin 32000 => x (ix2 r k)) := by
  refine (Ideal.multiReduction_maximumf_single x 0xFF800000#32 reduces_S64x32000_S64 (.inl rfl) rfl (ix1 r)).trans ?_
  unfold Cert.RowLaw.rmax
  rw [Ideal.ofBits_def, Cert.RowLaw.ofBits_neg_inf]
  exact congrArg (Finset.fold max ⊥ · (Finset.univ : Finset (Fin 32000)))
    (funext fun k => congrArg x (lift_row r k))

/-- A row sum, read at row `r`: the sum of the row's entries. -/
private theorem rowsum_apply (x : FVec Ideal S64x32000 .f32) (r : Fin 64) :
    multiReduction (F := Ideal) .add [1] S64 x 0x00000000#32 reduces_S64x32000_S64 (.inl rfl) rfl (ix1 r)
      = ∑ k : Fin 32000, x (ix2 r k) := by
  refine (Ideal.multiReduction_add_single x 0x00000000#32 reduces_S64x32000_S64 (.inl rfl) rfl (ix1 r)).trans ?_
  exact Finset.sum_congr rfl fun k _ => congrArg x (lift_row r k)

/-- A vector of 64 entries reshaped to a column, read at `(r, 0)`: entry `r`. -/
private theorem col_apply (x : FVec Ideal S64 .f32) (r : Fin 64) :
    shapeCast S64x1 x shapeCasts_S64_S64x1 (ix2 r (0 : Fin 1)) = x (ix1 r) := by
  refine shapeCast_apply x shapeCasts_S64_S64x1 (ix2 r (0 : Fin 1)) (ix1 r) ?_
  rw [Shape.rowMajor_val_one, Shape.rowMajor_val_two]
  show r.val = r.val * 1 + 0
  omega

/-- A column broadcast along the rows, read at `(r, k)`: the column's entry of row `r`. -/
private theorem bcast_apply (x : FVec Ideal S64x1 .f32) (r : Fin 64) (k : Fin 32000) :
    broadcastTo S64x32000 x broadcasts_S64x1_S64x32000 (ix2 r k) = x (ix2 r (0 : Fin 1)) := by
  refine broadcastTo_apply x broadcasts_S64x1_S64x32000 (ix2 r k) (ix2 r (0 : Fin 1)) fun a => ?_
  match a with
  | ⟨0, _⟩ => rfl
  | ⟨1, _⟩ => rfl

/-- Three columns side by side, read at column 0: the first column at row `r`. -/
private theorem cat_apply0 (a b c : FVec Ideal S64x1 .f32) (r : Fin 64) :
    concatenate S64x3 1 [⟨S64x1, a⟩, ⟨S64x1, b⟩, ⟨S64x1, c⟩] concatenates_S64x1_S64x1_S64x1_S64x3_d1 (ix2 r (0 : Fin 3))
      = a (ix2 r (0 : Fin 1)) := by
  refine concatenate_apply_piece (1 : Fin S64x3.rank) [⟨S64x1, a⟩, ⟨S64x1, b⟩, ⟨S64x1, c⟩]
    concatenates_S64x1_S64x1_S64x1_S64x3_d1 (ix2 r (0 : Fin 3))
    0 (by show 0 < 3; omega) S64x1 a rfl rfl 0 rfl (ix2 r (0 : Fin 1)) (fun d hd => ?_) rfl
  match d with
  | ⟨0, _⟩ => rfl
  | ⟨1, _⟩ => exact absurd (Fin.ext rfl) hd

/-- … at column 1: the second column at row `r`. -/
private theorem cat_apply1 (a b c : FVec Ideal S64x1 .f32) (r : Fin 64) :
    concatenate S64x3 1 [⟨S64x1, a⟩, ⟨S64x1, b⟩, ⟨S64x1, c⟩] concatenates_S64x1_S64x1_S64x1_S64x3_d1 (ix2 r (1 : Fin 3))
      = b (ix2 r (0 : Fin 1)) := by
  refine concatenate_apply_piece (1 : Fin S64x3.rank) [⟨S64x1, a⟩, ⟨S64x1, b⟩, ⟨S64x1, c⟩]
    concatenates_S64x1_S64x1_S64x1_S64x3_d1 (ix2 r (1 : Fin 3))
    1 (by show 1 < 3; omega) S64x1 b rfl rfl 1 rfl (ix2 r (0 : Fin 1)) (fun d hd => ?_) rfl
  match d with
  | ⟨0, _⟩ => rfl
  | ⟨1, _⟩ => exact absurd (Fin.ext rfl) hd

/-- … at column 2: the third column at row `r`. -/
private theorem cat_apply2 (a b c : FVec Ideal S64x1 .f32) (r : Fin 64) :
    concatenate S64x3 1 [⟨S64x1, a⟩, ⟨S64x1, b⟩, ⟨S64x1, c⟩] concatenates_S64x1_S64x1_S64x1_S64x3_d1 (ix2 r (2 : Fin 3))
      = c (ix2 r (0 : Fin 1)) := by
  refine concatenate_apply_piece (1 : Fin S64x3.rank) [⟨S64x1, a⟩, ⟨S64x1, b⟩, ⟨S64x1, c⟩]
    concatenates_S64x1_S64x1_S64x1_S64x3_d1 (ix2 r (2 : Fin 3))
    2 (by show 2 < 3; omega) S64x1 c rfl rfl 2 rfl (ix2 r (0 : Fin 1)) (fun d hd => ?_) rfl
  match d with
  | ⟨0, _⟩ => rfl
  | ⟨1, _⟩ => exact absurd (Fin.ext rfl) hd

/-- The column of row maxima. -/
private abbrev mcol (v0 : FVec Ideal S64x32000 .f32) : FVec Ideal S64x1 .f32 :=
  shapeCast S64x1 (multiReduction (F := Ideal) .maximumf [1] S64 v0 0xFF800000#32 reduces_S64x32000_S64 (.inl rfl) rfl)
    shapeCasts_S64_S64x1
/-- The block less its row maxima. -/
private abbrev shv (v0 : FVec Ideal S64x32000 .f32) : FVec Ideal S64x32000 .f32 :=
  subf v0 (broadcastTo S64x32000 (mcol v0) broadcasts_S64x1_S64x32000)
/-- The column of the rows' sums of exponentials. -/
private abbrev scol (v0 : FVec Ideal S64x32000 .f32) : FVec Ideal S64x1 .f32 :=
  shapeCast S64x1 (multiReduction (F := Ideal) .add [1] S64 (exp (shv v0)) 0x00000000#32 reduces_S64x32000_S64 (.inl rfl) rfl)
    shapeCasts_S64_S64x1
/-- The column of the rows' sums of exponential times shifted entry. -/
private abbrev tcol (v0 : FVec Ideal S64x32000 .f32) : FVec Ideal S64x1 .f32 :=
  shapeCast S64x1 (multiReduction (F := Ideal) .add [1] S64 (mulf (exp (shv v0)) (shv v0)) 0x00000000#32
    reduces_S64x32000_S64 (.inl rfl) rfl) shapeCasts_S64_S64x1

/-- The column of row maxima at row `r` is the row's maximum. -/
private theorem mcol_apply (v0 : FVec Ideal S64x32000 .f32) (r : Fin 64) :
    mcol v0 (ix2 r (0 : Fin 1)) = Cert.RowLaw.rmax (fun k : Fin 32000 => v0 (ix2 r k)) :=
  (col_apply _ r).trans (rowmax_apply v0 r)

/-- The shifted block at `(r, k)` is the row's entry `k` less the row's maximum. -/
private theorem shv_apply (v0 : FVec Ideal S64x32000 .f32) (r : Fin 64) (k : Fin 32000) :
    shv v0 (ix2 r k) = Cert.RowLaw.sh (fun k : Fin 32000 => v0 (ix2 r k)) k := by
  show v0 (ix2 r k) - broadcastTo S64x32000 (mcol v0) broadcasts_S64x1_S64x32000 (ix2 r k) = _
  rw [bcast_apply, mcol_apply]
  rfl

/-- The column of sums of exponentials at row `r` is the row's sum. -/
private theorem scol_apply (v0 : FVec Ideal S64x32000 .f32) (r : Fin 64) :
    scol v0 (ix2 r (0 : Fin 1)) = Cert.RowLaw.ssum (fun k : Fin 32000 => v0 (ix2 r k)) :=
  (col_apply _ r).trans ((rowsum_apply _ r).trans
    (Finset.sum_congr rfl fun k _ => congrArg Ideal.exp (shv_apply v0 r k)))

/-- The column of sums of exponential times shifted entry at row `r`. -/
private theorem tcol_apply (v0 : FVec Ideal S64x32000 .f32) (r : Fin 64) :
    tcol v0 (ix2 r (0 : Fin 1))
      = ∑ k : Fin 32000, Ideal.exp (Cert.RowLaw.sh (fun k : Fin 32000 => v0 (ix2 r k)) k)
          * Cert.RowLaw.sh (fun k : Fin 32000 => v0 (ix2 r k)) k :=
  (col_apply _ r).trans ((rowsum_apply _ r).trans
    (Finset.sum_congr rfl fun k _ => by
      show Ideal.exp (shv v0 (ix2 r k)) * shv v0 (ix2 r k) = _
      rw [shv_apply]))

/-- The first column's arithmetic, entry by entry. -/
private theorem pdf_at (a m o s : FVec Ideal S64x1 .f32) (i : S64x1.Idx) :
    mulf (exp (subf a m)) (divf o s) i = Ideal.exp (a i - m i) * Ideal.div (o i) (s i) := rfl
/-- The second column's arithmetic, entry by entry. -/
private theorem logp_at (a m s : FVec Ideal S64x1 .f32) (i : S64x1.Idx) :
    subf (subf a m) (log s) i = (a i - m i) - Ideal.log (s i) := rfl
/-- The third column's arithmetic, entry by entry. -/
private theorem ent_at (o s t : FVec Ideal S64x1 .f32) (i : S64x1.Idx) :
    subf (mulf (divf o s) t) (log s) i = Ideal.div (o i) (s i) * t i - Ideal.log (s i) := rfl
/-- The splat of the constant 1.0 reads 1 everywhere. -/
private theorem one_at (i : S64x1.Idx) :
    broadcast S64x1 (Scalar.ofBits (F := Ideal) .f32 0x3F800000#32) i = (1 : EReal) :=
  Cert.RowLaw.ofBits_one

/-- The stored value as the three columns side by side, over the columns named above. -/
private theorem k0_pay1_eq (v0 : FVec Ideal S64x32000 .f32) (v11 : FVec Ideal S64x1 .f32) :
    k0_pay1 (F := Ideal) v0 v11
      = concatenate S64x3 1
          [⟨S64x1, mulf (exp (subf (shapeCast S64x1 v11 shapeCasts_S64x1_S64x1) (mcol v0)))
              (divf (broadcast S64x1 (Scalar.ofBits (F := Ideal) .f32 0x3F800000#32)) (scol v0))⟩,
           ⟨S64x1, subf (subf (shapeCast S64x1 v11 shapeCasts_S64x1_S64x1) (mcol v0)) (log (scol v0))⟩,
           ⟨S64x1, subf (mulf (divf (broadcast S64x1 (Scalar.ofBits (F := Ideal) .f32 0x3F800000#32)) (scol v0)) (tcol v0))
              (log (scol v0))⟩]
          concatenates_S64x1_S64x1_S64x1_S64x3_d1 := rfl

/-- Column 0: the probability of the gathered entry. -/
theorem pay_pdf (v0 : FVec Ideal S64x32000 .f32) (v11 : FVec Ideal S64x1 .f32) (r : Fin 64) :
    k0_pay1 (F := Ideal) v0 v11 (ix2 r (0 : Fin 3))
      = Cert.RowLaw.kpdf (fun k : Fin 32000 => v0 (ix2 r k)) (v11 (ix2 r (0 : Fin 1))) := by
  rw [k0_pay1_eq]
  refine (cat_apply0 _ _ _ r).trans ?_
  refine (pdf_at _ _ _ _ _).trans ?_
  rw [shapeCast_self, mcol_apply, scol_apply, one_at]
  rfl

/-- Column 1: its logarithm. -/
theorem pay_logp (v0 : FVec Ideal S64x32000 .f32) (v11 : FVec Ideal S64x1 .f32) (r : Fin 64) :
    k0_pay1 (F := Ideal) v0 v11 (ix2 r (1 : Fin 3))
      = Cert.RowLaw.klogp (fun k : Fin 32000 => v0 (ix2 r k)) (v11 (ix2 r (0 : Fin 1))) := by
  rw [k0_pay1_eq]
  refine (cat_apply1 _ _ _ r).trans ?_
  refine (logp_at _ _ _ _).trans ?_
  rw [shapeCast_self, mcol_apply, scol_apply]
  rfl

/-- Column 2: the row's sum of p log p. -/
theorem pay_ent (v0 : FVec Ideal S64x32000 .f32) (v11 : FVec Ideal S64x1 .f32) (r : Fin 64) :
    k0_pay1 (F := Ideal) v0 v11 (ix2 r (2 : Fin 3))
      = Cert.RowLaw.kent (fun k : Fin 32000 => v0 (ix2 r k)) := by
  rw [k0_pay1_eq]
  refine (cat_apply2 _ _ _ r).trans ?_
  refine (ent_at _ _ _ _).trans ?_
  rw [scol_apply, tcol_apply, one_at]
  rfl

end Cert.KernelIdeal.Payload

end
-- ==== Proof.TakeAlong.lean ====
/-
  The chain of host operations both programs use to read one entry per row of a [4096, 32000] array at a column
  given by an index array: an index below zero counts from the end of the axis (32000 is added to it), the
  result is tested for lying in [0, 31999], the operand is gathered along axis 1 at the start index (the
  gather keeps the row: axis 0 is a batching axis), and a row whose index failed the test receives a fill value
  instead. The kernel applies the chain to the logits, the reference to the probabilities; here it is one
  function of the operand, so that neither proof opens it. Where the test passes, the chain's value at row `i`
  is the operand at `(i, col i)` for a column that depends on the index array only; and the three rows both
  programs stack into their [3, 4096] result are stacked by one function too.
-/
import Idealize.ShloMosaic.PureOps
import Idealize.ShloMosaic.PureOps.Reduce
import Idealize.ShloMosaic.Lib.ValueIdx
import Idealize.ShloMosaic.Lib.Pipeline.Value

noncomputable section

namespace Cert.TakeAlong

open Idealize.ShloMosaic Idealize.ShloMosaic.ValueIdx

abbrev SX : Shape := ⟨2, ![4096, 32000]⟩
abbrev SB : Shape := ⟨1, ![4096]⟩
abbrev ST : Shape := ⟨2, ![4096, 1]⟩
abbrev SI : Shape := ⟨3, ![4096, 1, 1]⟩
abbrev S0 : Shape := ⟨0, ![]⟩
abbrev S1 : Shape := ⟨1, ![1]⟩
abbrev S111 : Shape := ⟨3, ![1, 1, 1]⟩
abbrev SR : Shape := ⟨2, ![1, 4096]⟩
abbrev SO : Shape := ⟨2, ![3, 4096]⟩

theorem bcast_S0_ST : S0.BroadcastsInDim ST (![] : Fin 0 → Fin ST.rank) := by decide
theorem bcast_SB_ST : SB.BroadcastsInDim ST (![0] : Fin 1 → Fin ST.rank) := by decide
theorem shapeCasts_SB_ST : SB.ShapeCasts ST := by decide
theorem shapeCasts_ST_SI : ST.ShapeCasts SI := by decide
theorem bcast_S0_SI : S0.BroadcastsInDim SI (![] : Fin 0 → Fin SI.rank) := by decide
theorem bcast_S1_S111 : S1.BroadcastsInDim S111 (![2] : Fin 1 → Fin S111.rank) := by decide
theorem bcast_S111_SI : S111.BroadcastsInDim SI (![0, 1, 2] : Fin 3 → Fin SI.rank) := by decide
theorem reducesTo_SI_ST : SI.ReducesTo [2] ST := by decide
theorem h_S0 : 0 < S0.numel := by decide
theorem gd_wf : GatherDims.WF SX SI ST [] [1] [0] [1] [0] 2 ![1, 1] := by decide
theorem bcast_SB_SR : SB.BroadcastsInDim SR (![1] : Fin 1 → Fin SR.rank) := by decide
theorem concat_SR3_SO : Shape.Concatenates [SR, SR, SR] SO 0 := by decide

/-- The gather's dimension numbers: one entry per row, the column from the start index. -/
def gd : GatherDims SX SI ST where
  offsetDims := []
  collapsedSliceDims := [1]
  operandBatchingDims := [0]
  startIndicesBatchingDims := [0]
  startIndexMap := [1]
  indexVectorDim := 2
  sliceSizes := ![1, 1]
  wf := gd_wf

/-- The start indices: each index, 32000 added to it when it is below zero, as a [4096, 1, 1] array. -/
def normIdx (ix : IVec ST 32) : IVec SI 32 :=
  shapeCast SI (select (cmpi .slt ix (broadcastInDim ST ![] bcast_S0_ST (constantI S0 32 0#32)))
    (addi ix (broadcastInDim ST ![] bcast_S0_ST (constantI S0 32 32000#32))) ix) shapeCasts_ST_SI

/-- The range test of the start indices, row by row. -/
def inb (ix : IVec ST 32) : IVec ST 1 :=
  Host.reduce IntOp.andi
    (andi (cmpi .sge (normIdx ix) (broadcastInDim SI ![] bcast_S0_SI (constantI S0 32 0#32)))
      (cmpi .sle (normIdx ix) (broadcastInDim SI ![0, 1, 2] bcast_S111_SI (broadcastInDim S111 ![2] bcast_S1_S111 (constantI S1 32 31999#32)))))
    (constantI S0 1 1#1) reducesTo_SI_ST h_S0

/-- The whole chain: the gathered entry where the test passes, the fill value elsewhere. -/
def takeAlong {F : FTy → Type} [FloatOps F] (a : FVec F SX .f32) (ix : IVec ST 32) : FVec F ST .f32 :=
  select (inb ix) (Host.gather gd a (normIdx ix)) (broadcastInDim ST ![] bcast_S0_ST (constant S0 .f32 0x7FC00000#32))

/-- The same test on one index word. -/
def inRange (v : BitVec 32) : BitVec 1 :=
  IntOp.andi (IntOp.cmpi .sge (Scalar.select (IntOp.cmpi .slt v 0#32) (IntOp.addi v 32000#32) v) 0#32)
    (IntOp.cmpi .sle (Scalar.select (IntOp.cmpi .slt v 0#32) (IntOp.addi v 32000#32) v) 31999#32)

/-- The index array as a column, in the reference's spelling (a broadcast along a new unit axis). -/
def ixOf (x1 : IVec SB 32) : IVec ST 32 := broadcastInDim ST ![0] bcast_SB_ST x1

/-- The column at any index reads the array at the index's row. -/
private theorem ixOf_at (x1 : IVec SB 32) (j : ST.Idx) : ixOf x1 j = x1 (ix1 (j 0)) := by
  unfold ixOf
  exact broadcastInDim_apply _ _ _ j (ix1 (j 0)) (fun a => match a with | ⟨0, _⟩ => rfl)

/-- The kernel's spelling of the same column is a reshape. -/
theorem shapeCast_eq_ixOf (x1 : IVec SB 32) : shapeCast ST x1 shapeCasts_SB_ST = ixOf x1 := by
  -- at `(i, k)` both read `x1` at `i`: the reshape because the row-major position of `(i, k)` in [4096, 1] is `i`
  funext j
  rw [ixOf_at]
  refine shapeCast_apply x1 _ j (ix1 (j 0)) ?_
  rw [Shape.rowMajor_val_two, Shape.rowMajor_val_one]
  have h1 : (j 1).val < 1 := (j 1).isLt
  show (j 0).val = (j 0).val * 1 + (j 1).val
  omega

theorem ixOf_apply (x1 : IVec SB 32) (i : Fin 4096) : ixOf x1 (ix2 i 0) = x1 (ix1 i) := ixOf_at x1 _

/-- The column row `i` reads. -/
def col (x1 : IVec SB 32) (i : Fin 4096) : Fin 32000 :=
  ⟨((gd.operandIdx (ix2 i (0 : Fin 1)) (normIdx (ixOf x1))) 1).val, (gd.operandIdx (ix2 i (0 : Fin 1)) (normIdx (ixOf x1)) 1).isLt⟩

/-- The start index of row `i` is the row's index word, 32000 added to it when it is below zero: `(i, 0, 0)` and
    `(i, 0)` have the same row-major position, and the operations under the reshape act entry by entry. -/
private theorem normIdx_apply (ix : IVec ST 32) (i : Fin 4096) :
    normIdx ix (ix3 i 0 0)
      = Scalar.select (IntOp.cmpi .slt (ix (ix2 i 0)) 0#32) (IntOp.addi (ix (ix2 i 0)) 32000#32) (ix (ix2 i 0)) := by
  unfold normIdx
  refine (shapeCast_apply _ _ (ix3 i 0 0) (ix2 i 0) ?_).trans rfl
  rw [Shape.rowMajor_val_two, Shape.rowMajor_val_three]
  show i.val * 1 + 0 = (i.val * 1 + 0) * 1 + 0
  omega

private theorem reduces_SI_ST : Shape.Reduces SI [2] ST := by decide

/-- The one source index over `(i, 0)` on the reduced axis. -/
private theorem lift_eq (i : Fin 4096) (k : Fin (SI.size 2)) :
    Shape.Reduces.lift reduces_SI_ST (ix2 i 0) k = ix3 i 0 0 := by
  funext c
  refine Fin.ext ?_
  match c with
  | ⟨0, _⟩ => rfl
  | ⟨1, _⟩ => rfl
  | ⟨2, _⟩ => exact Nat.lt_one_iff.mp k.isLt

/-- On one bit, `and` with the set bit changes nothing. -/
private theorem andi_one (b : BitVec 1) : IntOp.andi b 1#1 = b := by
  revert b; decide

/-- A fold over the coordinates of an axis of one entry is one application of the operation. -/
private theorem fold_univ_of_eq_one {α : Type} {n : Nat} (hn : n = 1) (op : α → α → α) [Std.Commutative op]
    [Std.Associative op] (b : α) (f : Fin n → α) :
    (Finset.univ : Finset (Fin n)).fold op b f = op (f ⟨0, by omega⟩) b := by
  subst hn
  rw [Finset.univ_unique, Finset.fold_singleton]
  rfl

/-- The range test of row `i` is the range test of its index word: the reduction runs over an axis of one entry,
    from the set bit, so it is that entry; and the entry is the two comparisons of the start index at `(i, 0, 0)`. -/
private theorem inb_apply (ix : IVec ST 32) (i : Fin 4096) : inb ix (ix2 i 0) = inRange (ix (ix2 i 0)) := by
  unfold inb
  rw [Host.reduce_eq_fold_single IntOp.andi _ _ reducesTo_SI_ST reduces_SI_ST h_S0 (ix2 i 0),
    fold_univ_of_eq_one (show SI.size 2 = 1 from rfl), Function.comp_apply, lift_eq]
  show IntOp.andi (IntOp.andi (IntOp.cmpi .sge (normIdx ix (ix3 i 0 0)) 0#32)
    (IntOp.cmpi .sle (normIdx ix (ix3 i 0 0)) 31999#32)) 1#1 = _
  rw [andi_one, normIdx_apply]
  rfl

/-- Row `i`'s entry reads the operand in row `i`: axis 0 is a batching axis, so the start is 0 there, there is no
    offset coordinate, and the batching coordinate is the result's coordinate on axis 0. -/
private theorem operandIdx_row {w : Nat} (idx : IVec SI w) (i : Fin 4096) :
    ((gd.operandIdx (ix2 i (0 : Fin 1)) idx) 0).val = i.val := by
  show gd.start (ix2 i 0) idx 0 + gd.batchCoord (ix2 i 0) 0 + gd.offCoord (ix2 i 0) 0 = i.val
  rw [GatherDims.start_batching gd _ _ 0 (List.mem_singleton.mpr rfl),
    GatherDims.offCoord_eq_zero gd _ 0 (fun h => ((GatherDims.mem_sKept gd 0).mp h).2 (List.mem_singleton.mpr rfl))]
  simp only [Nat.zero_add, Nat.add_zero]
  rfl

/-- Where row `i`'s index passes the range test, the chain's value there is the operand at `(i, col i)`. -/
theorem takeAlong_apply {F : FTy → Type} [FloatOps F] (a : FVec F SX .f32) (x1 : IVec SB 32) (i : Fin 4096)
    (h : inRange (x1 (ix1 i)) = 1#1) : takeAlong a (ixOf x1) (ix2 i 0) = a (ix2 i (col x1 i)) := by
  -- the test passes at row `i`, so the chain's value is the gathered entry; the gather reads the operand at the
  -- index whose coordinate 0 is `i` and whose coordinate 1 is `col x1 i` by definition
  unfold takeAlong
  rw [select_apply, inb_apply, ixOf_apply, h, select_one]
  unfold Host.gather
  refine congrArg a (funext fun c => Fin.ext ?_)
  match c with
  | ⟨0, _⟩ => exact operandIdx_row _ i
  | ⟨1, _⟩ => rfl

/-- Row `i` of a [4096, 32000] array. -/
def rowOf {α : Type} (x0 : SX.Idx → α) (i : Fin 4096) : Fin 32000 → α := fun k => x0 (ix2 i k)

/-- Three rows of length 4096 stacked into a [3, 4096] array, as both programs do it: each row given a leading
    unit axis, the three joined along it. -/
def stack3 {α : Type} (a b c : SB.Idx → α) : SO.Idx → α :=
  concatenate SO 0 [⟨SR, broadcastInDim SR ![1] bcast_SB_SR a⟩, ⟨SR, broadcastInDim SR ![1] bcast_SB_SR b⟩,
    ⟨SR, broadcastInDim SR ![1] bcast_SB_SR c⟩] concat_SR3_SO

end Cert.TakeAlong

end
-- ==== Proof.LibNary3.lean ====
/-
  A host operation over a LITERAL family of three references (a `stablehlo.concatenate` of three operands,
  printed `StableHlo.nary ![a, b, c] …`), in a line of host operations that is to be read back.
  `nary3_result`: its result with each operand's contents AT ITS OWN REFERENCE, `Fin.cons (F a) (Fin.cons (F b)
  (Fin.cons (F c) _))` in place of `fun k => F (![a, b, c] k)` (under the binder the reference `![a, b, c] k` is no
  literal, and no result lemma of the operations that wrote the operands applies to it). The library states this for
  a family of four; this is the same statement for three, with the form a simplifier pass takes beside it, and a
  rewriting read-back tactic for a SHORT line with the lemma in its loop (`after_results3`).
  For a LONG line that ends in such an operation neither read-back goes through the operand list in reasonable time,
  so the last operation is taken off first: `after_append` (two lines in sequence), `after_snoc_nary3` (the result
  buffer after the line is the operation's function of the three operand buffers after the shorter line),
  `after_snoc_nary_ne` (any other buffer is as the shorter line leaves it), and `concatenate3_congr` (a join of three
  pieces of one shape is determined by its pieces), after which the three operands are read back as three goals.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type}
variable {x a b y : Ref sig .tc}

/-- The result buffer of an operation over the three literal references `x`, `a`, `b` holds the operation's
    function of the three buffers' contents, each named at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a simplifier pass over a line of operations. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The rewriting read-back of a short line of operations (the library's `after_results`) with the three-reference
    result lemma in its loop. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result] | rw [Idealize.ShloMosaic.StableHlo.binary_result] | rw [Idealize.ShloMosaic.StableHlo.ternary_result]
               | rw [Idealize.ShloMosaic.StableHlo.reshape_result] | rw [Cert.LibNary3.nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line that ENDS in an operation over three literal references `x`, `a`, `b`: after the line, the operation's
    result `y` holds its function of what `x`, `a`, `b` hold after the line WITHOUT its last operation. This takes the
    last operation off a long line before the line is read back, so that its three operands are read back as three
    separate buffers. -/
theorem after_snoc_nary3 (l : List (HloOp τ sig Val))
    (f : ((k : Fin 3) → ((![x, a, b] : Fin 3 → Ref sig .tc) k).ty.Contents Val) → y.ty.Contents Val) (hxs hy)
    (V : Valuation τ sig Val) :
    after (l ++ [nary (τ := τ) ![x, a, b] y f hxs hy]) V (Proc.devRef .tc y)
      = f (Fin.cons (after l V (Proc.devRef .tc x)) (Fin.cons (after l V (Proc.devRef .tc a))
          (Fin.cons (after l V (Proc.devRef .tc b)) (fun i => i.elim0)))) := by
  simp only [after_append, after_cons, after_nil]
  exact nary3_result f hxs hy _

/-- A buffer other than the last operation's result holds after the line what it held before that operation. -/
theorem after_snoc_nary_ne {n : Nat} (l : List (HloOp τ sig Val)) (xs : Fin n → Ref sig .tc)
    (f : ((k : Fin n) → (xs k).ty.Contents Val) → y.ty.Contents Val) (hxs hy)
    (V : Valuation τ sig Val) {r : Ref sig .tc} (hr : r ≠ y) :
    after (l ++ [nary (τ := τ) xs y f hxs hy]) V (Proc.devRef .tc r) = after l V (Proc.devRef .tc r) := by
  simp only [after_append, after_cons, after_nil]
  exact nary_result_ne (xs := xs) (f := f) (hxs := hxs) (hy := hy) (F := _) (h := hr)

/-- Three pieces of one shape joined along an axis: equal pieces give equal joins. -/
theorem concatenate3_congr {α : Type} {t s : Shape} (ax : Fin t.rank) {p p' q q' r r' : s.Idx → α}
    (h : Shape.Concatenates [s, s, s] t ax) (ep : p = p') (eq : q = q') (er : r = r') :
    concatenate t ax [⟨s, p⟩, ⟨s, q⟩, ⟨s, r⟩] h = concatenate t ax [⟨s, p'⟩, ⟨s, q'⟩, ⟨s, r'⟩] h := by
  subst ep eq er; rfl

end Cert.LibNary3

end
-- ==== Proof.KIValue.lean ====
/-
  What the idealized kernel's program leaves in its result, read off the frame run. The output window's array is
  [4096, 3]; grid point `t` writes back rows 64 t … 64 t + 63, and what it writes is the body's stored value of the
  two input blocks at `t`: rows 64 t … of the logits, and of the column of gathered logits. So the array ends as one
  function `Gout` of the logits `X` and the gathered column `L`: at (i, 0) the kernel's spelling of the probability of
  row i's gathered entry, at (i, 1) of its logarithm, at (i, 2) of the row's sum of p log p. The 64 blocks tile the
  array, so nothing of its earlier contents is left. The host lines after the region slice the three columns out,
  flatten them and stack them: the result is `stack3` of the three columns of `Gout`.
-/
import proofs.«420277_j18923625906267_3_alg».proof.Proof.KIFrame
import proofs.«420277_j18923625906267_3_alg».proof.Proof.KIPayload
import proofs.«420277_j18923625906267_3_alg».proof.Proof.RowLaw
import proofs.«420277_j18923625906267_3_alg».proof.Proof.TakeAlong
import proofs.«420277_j18923625906267_3_alg».proof.Proof.LibNary3
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.TakeAlong (rowOf stack3 takeAlong ixOf col inRange)

variable (m : (ℓ : Loc nD τ sig) → Buf (Elt Ideal) ℓ) (ρ : Dev nD → PrngReg)

theorem hz : (![0, 0] : Fin 2 → Nat) = fun _ => 0 := funext fun a => by fin_cases a <;> rfl

/-- The logits as the region finds them, and the column of gathered logits. -/
abbrev Xarr (c : Dev nD) : S4096x32000.Idx → EReal := V m c main_arg0
abbrev Larr (c : Dev nD) : S4096x1.Idx → EReal := V m c main_v1

/-- The array the output window ends at, as a function of the logits and the gathered column. -/
def Gout (X : S4096x32000.Idx → EReal) (L : S4096x1.Idx → EReal) : S4096x3.Idx → EReal := fun j =>
  if (j 1).val = 0 then Cert.RowLaw.kpdf (rowOf X ⟨(j 0).val, idx2_lt0 j⟩) (L (ix2 ⟨(j 0).val, idx2_lt0 j⟩ (0 : Fin 1)))
  else if (j 1).val = 1 then Cert.RowLaw.klogp (rowOf X ⟨(j 0).val, idx2_lt0 j⟩) (L (ix2 ⟨(j 0).val, idx2_lt0 j⟩ (0 : Fin 1)))
  else Cert.RowLaw.kent (rowOf X ⟨(j 0).val, idx2_lt0 j⟩)

/-- The printed index maps over the grid: at point `t` every window is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 64 := lt_of_lt_of_eq t.isLt (N_0 : cfg0.N = 64)

/-- The two input blocks at point `t`, at their literal types. -/
abbrev xblk (c : Dev nD) (t : Fin cfg0.N) : Vec Ideal S64x32000 .f32 := iblk m c 0 t
abbrev lblk (c : Dev nD) (t : Fin cfg0.N) : Vec Ideal S64x1 .f32 := iblk m c 1 t

/-- Row `r` of the logits' block at `t` is row 64 t + r of the logits. -/
theorem xblk_apply (c : Dev nD) (t : Fin cfg0.N) (r : Fin 64) (k : Fin 32000) :
    xblk m c t (ix2 r k) = Xarr m c (ix2 ⟨64 * t.val + r.val, by have := t_lt t; omega⟩ k) := by
  show Xarr m c (((cfg0.win 0).blk t).view.emb (ix2 r k)) = _
  congr 1
  funext a; apply Fin.ext
  obtain ⟨e0, e1, -⟩ := idx_facts t
  match a with
  | ⟨0, _⟩ => show win0_0.index t (0 : Fin 2) * 64 + 1 * r.val = 64 * t.val + r.val; omega
  | ⟨1, _⟩ => show win0_0.index t (1 : Fin 2) * 32000 + 1 * k.val = k.val; omega

/-- Row `r` of the gathered column's block at `t` is row 64 t + r of the column. -/
theorem lblk_apply (c : Dev nD) (t : Fin cfg0.N) (r : Fin 64) :
    lblk m c t (ix2 r (0 : Fin 1)) = Larr m c (ix2 ⟨64 * t.val + r.val, by have := t_lt t; omega⟩ (0 : Fin 1)) := by
  show Larr m c (((cfg0.win 1).blk t).view.emb (ix2 r (0 : Fin 1))) = _
  congr 1
  funext a; apply Fin.ext
  obtain ⟨-, -, e2, e3, -⟩ := idx_facts t
  match a with
  | ⟨0, _⟩ => show win0_1.index t (0 : Fin 2) * 64 + 1 * r.val = 64 * t.val + r.val; omega
  | ⟨1, _⟩ => show win0_1.index t (1 : Fin 2) * 1 + 1 * 0 = 0; omega

/-- The body's stored value at `t`, read at (r, q), is `Gout` at (64 t + r, q). -/
theorem pay_at (c : Dev nD) (t : Fin cfg0.N) (r : Fin 64) (q : Fin 3) :
    k0_pay1 (F := Ideal) (xblk m c t) (lblk m c t) (ix2 r q)
      = Gout (Xarr m c) (Larr m c) (ix2 ⟨64 * t.val + r.val, by have := t_lt t; omega⟩ q) := by
  have hrow : (fun k : Fin 32000 => xblk m c t (ix2 r k)) = rowOf (Xarr m c) ⟨64 * t.val + r.val, by have := t_lt t; omega⟩ :=
    funext fun k => xblk_apply m c t r k
  match q with
  | ⟨0, _⟩ =>
    refine (Cert.KernelIdeal.Payload.pay_pdf (xblk m c t) (lblk m c t) r).trans ?_
    rw [hrow, lblk_apply]; rfl
  | ⟨1, _⟩ =>
    refine (Cert.KernelIdeal.Payload.pay_logp (xblk m c t) (lblk m c t) r).trans ?_
    rw [hrow, lblk_apply]; rfl
  | ⟨2, _⟩ =>
    refine (Cert.KernelIdeal.Payload.pay_ent (xblk m c t) (lblk m c t) r).trans ?_
    rw [hrow]; rfl

/-- WHAT POINT `t` WRITES BACK is block `t` of `Gout`. -/
theorem flushed_eq (c : Dev nD) (t : Fin cfg0.N) :
    (dats m 0 c).flushed 2 t = ((cfg0.win 2).blk t).view.read (Elt Ideal) (Gout (Xarr m c) (Larr m c)) := by
  show (cfg0.win 2).cut (grid0.coords t) ((dats m 0 c).after 2 t) = _
  rw [after0_2]
  unfold out0_2
  rw [View.canon_unit_zero hz]
  simp only [View.ld_unit_zero (S := S64x32000) hz, View.ld_unit_zero (S := S64x1) hz]
  funext y
  show k0_pay1 (F := Ideal) (xblk m c t) (lblk m c t) y = Gout (Xarr m c) (Larr m c) (((cfg0.win 2).blk t).view.emb y)
  have hy : y = ix2 (y 0) (y 1) := eq_ix2 y
  rw [hy]
  refine (pay_at m c t (y 0) (y 1)).trans ?_
  congr 1
  funext a; apply Fin.ext
  obtain ⟨-, -, -, -, e4, e5⟩ := idx_facts t
  match a with
  | ⟨0, _⟩ => show 64 * t.val + (y 0).val = win0_2.index t (0 : Fin 2) * 64 + 1 * (y 0).val; omega
  | ⟨1, _⟩ => show (y 1).val = win0_2.index t (1 : Fin 2) * 3 + 1 * (y 1).val; omega

/-- An index of the array is in point `t`'s block iff each coordinate is in the block's range on its axis. -/
theorem mem_blk (t : Fin cfg0.N) (i : S4096x3.Idx) :
    i ∈ ((cfg0.win 2).blk t).view.set ↔ ∀ a : Fin 2, win0_2.index t a * S64x3.size a ≤ (i a).val ∧ (i a).val < win0_2.index t a * S64x3.size a + S64x3.size a := by
  show i ∈ ((View.whole main_v2).slice (win0_2.rect t)).set ↔ _
  rw [View.set_slice_whole, Rect.mem_set_unit]
  exact Iff.rfl

/-- Every index of the array is in the block of the point its row falls in. -/
theorem cover (i : S4096x3.Idx) : ∃ t : Fin cfg0.N, (cfg0.win 2).flush t = true ∧ i ∈ ((cfg0.win 2).blk t).view.set := by
  have hi0 : (i 0).val < 4096 := (i 0).isLt
  have hi1 : (i 1).val < 3 := (i 1).isLt
  refine ⟨⟨(i 0).val / 64, by rw [show cfg0.N = 64 from N_0]; omega⟩, flush0_2 _, ?_⟩
  rw [mem_blk]
  obtain ⟨-, -, -, -, e4, e5⟩ := idx_facts ⟨(i 0).val / 64, by rw [show cfg0.N = 64 from N_0]; omega⟩
  intro a
  match a with
  | ⟨0, _⟩ => show win0_2.index _ (0 : Fin 2) * 64 ≤ (i 0).val ∧ (i 0).val < win0_2.index _ (0 : Fin 2) * 64 + 64; rw [e4]; dsimp only; omega
  | ⟨1, _⟩ => show win0_2.index _ (1 : Fin 2) * 3 ≤ (i 1).val ∧ (i 1).val < win0_2.index _ (1 : Fin 2) * 3 + 3; rw [e5]; omega

/-- THE ARRAY after the run is `Gout` of the logits and the gathered column. -/
theorem final (c : Dev nD) : (dats m 0 c).arrAt 2 cfg0.N = Gout (Xarr m c) (Larr m c) :=
  (dats m 0 c).arrAt_eq_of_cover 2 (Gout (Xarr m c) (Larr m c)) (fun t _ => flushed_eq m c t) cover

/-! ## The gathered column, and the host lines after the region -/

/-- The column the second window stages is the shared chain applied to the logits and the index column, both as
    launched: the host lines before the region are the index array's reshape and then exactly that chain. -/
theorem Larr_eq (c : Dev nD) :
    Larr m c = takeAlong (F := Ideal) (m ((c : Thread nD τ).loc main_arg0))
      (shapeCast Cert.TakeAlong.ST (m ((c : Thread nD τ).loc main_arg1)) Cert.TakeAlong.shapeCasts_SB_ST) := by
  show StableHlo.after (List.flatten [hostOps0, hostOps0_1]) (fun b => m (c, b)) (Proc.devRef .tc main_v1) = _
  simp only [hostOps0, hostOps0_1, List.flatten_cons, List.flatten_nil, List.append_nil, List.cons_append, List.nil_append]
  after_results
  simp only [StableHlo.TRef.ofBuf, StableHlo.TRef.toBuf, cast_eq]
  rfl

/-- Column `q` of a [4096, 3] array, as a row of length 4096. -/
def colOf (G : S4096x3.Idx → EReal) (q : Fin 3) : S4096.Idx → EReal := fun i => G (ix2 (⟨(i 0).val, (i 0).isLt⟩ : Fin 4096) q)

/-- A column slice of a [4096, 3] array, flattened, is that column as a row of length 4096. -/
theorem col_slice (G : S4096x3.Idx → EReal) (q : Fin 3) (hs : S4096x3.Slices ![0, q.val] S4096x1)
    (hc : S4096x1.ShapeCasts S4096) :
    shapeCast S4096 (extractStridedSlice S4096x1 ![0, q.val] G hs) hc = colOf G q := by
  funext i
  refine (shapeCast_apply _ hc i (ix2 (⟨(i 0).val, (i 0).isLt⟩ : Fin 4096) (0 : Fin 1)) ?_).trans ?_
  · rw [Shape.rowMajor_val_two, Shape.rowMajor_val_one]
    show (i 0).val * 1 + 0 = (i 0).val
    omega
  · refine (slice2_axis1_eq q.val G hs _ _).trans ?_
    unfold colOf
    refine congrArg G (funext fun a => Fin.ext ?_)
    match a with
    | ⟨0, _⟩ => rfl
    | ⟨1, _⟩ => show q.val + 0 = q.val; omega

/-- The result buffer after the host lines that follow the region: the three columns of the output window's final
    array, stacked. -/
theorem tail_eq (c : Dev nD) :
    Pipeline.afterTail₀ cfgs (dats m) 0 (V0 m) [hostOps1] c main_v12
      = stack3 (colOf ((dats m 0 c).arrAt 2 cfg0.N) 0) (colOf ((dats m 0 c).arrAt 2 cfg0.N) 1) (colOf ((dats m 0 c).arrAt 2 cfg0.N) 2) := by
  unfold Pipeline.afterTail₀
  show StableHlo.after hostOps1 _ (Proc.devRef .tc main_v12) = _
  simp only [hostOps1]
  after_results3
  have hW : Pipeline.withArrays (cfgs 0).spec c (V0 m c) (fun w => (dats m 0 c).arrAt w (cfgs 0).N) (Proc.devRef .tc main_v2)
      = (dats m 0 c).arrAt 2 cfg0.N := Pipeline.withArrays_arr spec0 launch0.win.arr_inj c _ _ 2
  rw [hW]
  rw [← col_slice ((dats m 0 c).arrAt 2 cfg0.N) 0 Facts₀.slices_S4096x3_S4096x1_0_0 Facts₀.shapeCasts_S4096x1_S4096,
    ← col_slice ((dats m 0 c).arrAt 2 cfg0.N) 1 Facts₀.slices_S4096x3_S4096x1_0_1 Facts₀.shapeCasts_S4096x1_S4096,
    ← col_slice ((dats m 0 c).arrAt 2 cfg0.N) 2 Facts₀.slices_S4096x3_S4096x1_0_2 Facts₀.shapeCasts_S4096x1_S4096]
  rfl

/-! ## The three columns of `Gout`, and the run re-posted -/

theorem Gout_pdf (X : S4096x32000.Idx → EReal) (L : S4096x1.Idx → EReal) (i : Fin 4096) :
    Gout X L (ix2 i (0 : Fin 3)) = Cert.RowLaw.kpdf (rowOf X i) (L (ix2 i (0 : Fin 1))) := by
  unfold Gout; rw [if_pos (show ((ix2 i (0 : Fin 3) : S4096x3.Idx) 1).val = 0 from rfl)]
theorem Gout_logp (X : S4096x32000.Idx → EReal) (L : S4096x1.Idx → EReal) (i : Fin 4096) :
    Gout X L (ix2 i (1 : Fin 3)) = Cert.RowLaw.klogp (rowOf X i) (L (ix2 i (0 : Fin 1))) := by
  unfold Gout
  rw [if_neg (show ¬ ((ix2 i (1 : Fin 3) : S4096x3.Idx) 1).val = 0 from (by show ¬ (1 : ℕ) = 0; decide)),
    if_pos (show ((ix2 i (1 : Fin 3) : S4096x3.Idx) 1).val = 1 from rfl)]
theorem Gout_ent (X : S4096x32000.Idx → EReal) (L : S4096x1.Idx → EReal) (i : Fin 4096) :
    Gout X L (ix2 i (2 : Fin 3)) = Cert.RowLaw.kent (rowOf X i) := by
  unfold Gout
  rw [if_neg (show ¬ ((ix2 i (2 : Fin 3) : S4096x3.Idx) 1).val = 0 from (by show ¬ (2 : ℕ) = 0; decide)),
    if_neg (show ¬ ((ix2 i (2 : Fin 3) : S4096x3.Idx) 1).val = 1 from (by show ¬ (2 : ℕ) = 1; decide))]

/-- Column `q` of an array at row `i`. -/
theorem colOf_apply (G : S4096x3.Idx → EReal) (q : Fin 3) (i : Fin 4096) : colOf G q (ix1 i) = G (ix2 i q) := rfl

/-- The frame run re-posted: the result buffer holds the three columns of `Gout` of the logits and the gathered
    column, stacked; the two argument arrays end as launched. -/
theorem run_value : θ_run defs (onTc (τ := τ) (main (F := Ideal))) ⟨m, fun _ => 0, ρ⟩ (fun r => ∀ c : Dev nD,
      r.2.mem ((c.tc : Thread nD τ).loc main_v12)
        = stack3 (colOf (Gout (Xarr m c) (Larr m c)) 0) (colOf (Gout (Xarr m c) (Larr m c)) 1) (colOf (Gout (Xarr m c) (Larr m c)) 2)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v12 (Pipeline.mem_restRefs_of main_v12 (by decide) (by decide))).trans ((tail_eq m c).trans (by rw [final])),
       ((h c).1 0).trans ((((dats m) 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.HandValue

end
-- ==== Proof.RefRows.lean ====
/-
  The reference read at a row. Its three result rows are: the probability (each row's exponentials of the shifted
  entries over their sum) read at the row's index through the shared chain; the logarithm of that; and the row's sum
  of p log p. Read at row `i`, each is the reference's spelling of the row statistic (Proof/RowLaw.lean) at the row
  `i` of the logits, the probability at the column the chain reads; and the result is the three rows stacked.
-/
import proofs.«420277_j18923625906267_3_alg».proof.Proof.RefRead
import proofs.«420277_j18923625906267_3_alg».proof.Proof.RowLaw
import proofs.«420277_j18923625906267_3_alg».proof.Proof.TakeAlong
import Idealize.ShloMosaic.Lib.ValueIdx
import Idealize.ShloMosaic.Lib.Pipeline.Value
import Idealize.ShloMosaic.PureOps.Ideal.Laws

noncomputable section

namespace Cert.RefRows

open Cert.ReferenceIdeal Cert.ReferenceIdeal.ReadP Idealize.ShloMosaic Idealize.ShloMosaic.ValueIdx Idealize.SL.Sem
open Cert.TakeAlong (SX SB inRange col rowOf stack3)

/-- The [4096, 32000] shape with its columns dropped is the [4096] shape. -/
theorem red_SX_SB : SX.Reduces [1] SB := by decide

/-- The index over row `i` with the column `k` inserted is `(i, k)`. -/
theorem lift_row (i : Fin 4096) (k : Fin 32000) : red_SX_SB.lift (ix1 i) k = ix2 i k :=
  funext fun a => Fin.ext (by match a with | ⟨0, _⟩ => rfl | ⟨1, _⟩ => rfl)

/-- A maximum taken over the columns, read at row `i`: the fold of `max` over the row from the initial value. -/
theorem reduce_max_row (x0 : FVec Ideal SX .f32) (init : Cert.TakeAlong.S0.Idx → Ideal .f32) (h' : SX.ReducesTo [1] SB)
    (hu : 0 < Cert.TakeAlong.S0.numel) (i : Fin 4096) :
    Host.reduce FloatOps.maximumf x0 init h' hu (ix1 i)
      = (Finset.univ : Finset (Fin 32000)).fold max (init (Shape.Idx.first hu)) (rowOf x0 i) := by
  rw [Host.reduce_eq_fold_single FloatOps.maximumf x0 init h' red_SX_SB hu (ix1 i)]
  have hrow : (x0 ∘ red_SX_SB.lift (ix1 i)) = rowOf x0 i := by
    funext k
    exact congrArg x0 (lift_row i k)
  rw [hrow]
  rfl

/-- The reduce that takes each row's maximum, from minus infinity: at row `i` it is the row's maximum. -/
theorem v0_row (x0 : FVec Ideal SX .f32) (i : Fin 4096) :
    val_main_v0 (F := Ideal) x0 (ix1 i) = Cert.RowLaw.rmax (rowOf x0 i) := by
  unfold val_main_v0
  rw [reduce_max_row, val_main_cst_apply, Ideal.ofBits_def, Cert.RowLaw.ofBits_neg_inf]
  rfl

/-- The maximum of minus infinity and the row's maximum is the row's maximum. -/
theorem v2_row (x0 : FVec Ideal SX .f32) (i : Fin 4096) :
    val_main_v2 (F := Ideal) x0 (ix1 i) = Cert.RowLaw.rmax (rowOf x0 i) := by
  rw [val_main_v2_apply, val_main_v1_apply, val_main_cst_0_apply, Ideal.maximumf_def, Ideal.ofBits_def,
    Cert.RowLaw.ofBits_neg_inf, max_bot_left, v0_row]

/-- The two broadcasts that spread the row maximum over the columns read, at `(i, k)`, row `i`. -/
theorem idx_v3_v4 (i : Fin 4096) (k : Fin 32000) : idx_main_v3 (idx_main_v4 (ix2 i k)) = ix1 i :=
  funext fun a => Fin.ext (by match a with | ⟨0, _⟩ => rfl)
/-- The two broadcasts that spread the row sum over the columns read, at `(i, k)`, row `i`. -/
theorem idx_v8_v9 (i : Fin 4096) (k : Fin 32000) : idx_main_v8 (idx_main_v9 (ix2 i k)) = ix1 i :=
  funext fun a => Fin.ext (by match a with | ⟨0, _⟩ => rfl)
/-- The sum of the exponentials at row `i` runs over the entries `(i, k)`. -/
theorem idx_v7 (i : Fin 4096) (k : Fin 32000) : idx_main_v7 (ix1 i) k = ix2 i k :=
  funext fun a => Fin.ext (by match a with | ⟨0, _⟩ => rfl | ⟨1, _⟩ => rfl)
/-- The sum of p log p at row `i` runs over the entries `(i, k)`. -/
theorem idx_v17 (i : Fin 4096) (k : Fin 32000) : idx_main_v17 (ix1 i) k = ix2 i k :=
  funext fun a => Fin.ext (by match a with | ⟨0, _⟩ => rfl | ⟨1, _⟩ => rfl)
/-- The reshape of the [4096, 1] column to a [4096] row reads, at `i`, the entry `(i, 0)`. -/
theorem idx_v13 (i : Fin 4096) : idx_main_v13 (ix1 i) = ix2 i (0 : Fin 1) :=
  funext fun a => Fin.ext (by match a with | ⟨0, _⟩ => exact Nat.div_one _ | ⟨1, _⟩ => rfl)

/-- The shifted entry at `(i, k)`. -/
theorem v5_at (x0 : FVec Ideal SX .f32) (i : Fin 4096) (k : Fin 32000) :
    val_main_v5 (F := Ideal) x0 (ix2 i k) = Cert.RowLaw.sh (rowOf x0 i) k := by
  rw [val_main_v5_apply, val_main_v4_apply, val_main_v3_apply, idx_v3_v4, v2_row, Ideal.subf_def]
  rfl

/-- Its exponential. -/
theorem v6_at (x0 : FVec Ideal SX .f32) (i : Fin 4096) (k : Fin 32000) :
    val_main_v6 (F := Ideal) x0 (ix2 i k) = Ideal.exp (Cert.RowLaw.sh (rowOf x0 i) k) := by
  rw [val_main_v6_apply, v5_at, Ideal.hostUnary_exp_def]

/-- The row's sum of exponentials, taken from a zero. -/
theorem v7_row (x0 : FVec Ideal SX .f32) (i : Fin 4096) :
    val_main_v7 (F := Ideal) x0 (ix1 i) = 0 + Cert.RowLaw.ssum (rowOf x0 i) := by
  unfold Cert.RowLaw.ssum
  rw [val_main_v7_apply, val_main_cst_1_apply, Ideal.ofBits_def, Ideal.ofBits_zero_f32]
  refine congrArg (0 + ·) (Finset.sum_congr rfl fun k _ => ?_)
  rw [idx_v7, v6_at]

/-- The probability at `(i, k)`: the exponential over the row's sum. -/
theorem v10_at (x0 : FVec Ideal SX .f32) (i : Fin 4096) (k : Fin 32000) :
    val_main_v10 (F := Ideal) x0 (ix2 i k) = Cert.RowLaw.rprob (rowOf x0 i) k := by
  rw [val_main_v10_apply, val_main_v9_apply, val_main_v8_apply, idx_v8_v9, v7_row, v6_at, Ideal.hostDivf_def]
  rfl

/-- The reference's index chain is the shared one, applied to the probabilities at the index column. -/
theorem v12_eq (x0 : FVec Ideal SX .f32) (x1 : IVec SB 32) :
    val_main_v12 (F := Ideal) x0 x1 = Cert.TakeAlong.takeAlong (F := Ideal) (val_main_v10 (F := Ideal) x0) (Cert.TakeAlong.ixOf x1) := by
  unfold val_main_v12 val_main_call0_v12 val_main_call0_v13 val_main_call0_v14 val_main_call0_cst val_main_call0_c_3
    val_main_call0_v11 val_main_call0_v7 val_main_call0_v10 val_main_call0_v6 val_main_call0_c_2 val_main_call0_v9
    val_main_call0_v8 val_main_call0_c_1 val_main_call0_v5 val_main_call0_v4 val_main_call0_v1 val_main_call0_v3
    val_main_call0_v0 val_main_call0_c val_main_call0_v2 val_main_call0_c_0 val_main_v11
    Cert.TakeAlong.takeAlong Cert.TakeAlong.inb Cert.TakeAlong.normIdx Cert.TakeAlong.ixOf
  rfl

/-- The probability row at `i`, where the index passes the range test. -/
theorem ref_pdf (x0 : FVec Ideal SX .f32) (x1 : IVec SB 32) (i : Fin 4096) (hin : inRange (x1 (ix1 i)) = 1#1) :
    val_main_v13 (F := Ideal) x0 x1 (ix1 i) = Cert.RowLaw.rprob (rowOf x0 i) (col x1 i) := by
  rw [val_main_v13_apply, idx_v13, v12_eq, Cert.TakeAlong.takeAlong_apply _ x1 i hin, v10_at]

/-- The log-probability row at `i`. -/
theorem ref_logp (x0 : FVec Ideal SX .f32) (x1 : IVec SB 32) (i : Fin 4096) (hin : inRange (x1 (ix1 i)) = 1#1) :
    val_main_v14 (F := Ideal) x0 x1 (ix1 i) = Ideal.log (Cert.RowLaw.rprob (rowOf x0 i) (col x1 i)) := by
  rw [val_main_v14_apply, ref_pdf x0 x1 i hin, Ideal.hostUnary_log_def]

/-- The row of sums of p log p at `i`. -/
theorem ref_ent (x0 : FVec Ideal SX .f32) (i : Fin 4096) :
    val_main_v17 (F := Ideal) x0 (ix1 i) = Cert.RowLaw.rent (rowOf x0 i) := by
  unfold Cert.RowLaw.rent
  rw [val_main_v17_apply, val_main_cst_2_apply, Ideal.ofBits_def, Ideal.ofBits_zero_f32]
  refine congrArg (0 + ·) (Finset.sum_congr rfl fun k _ => ?_)
  rw [idx_v17, val_main_v16_apply, val_main_v15_apply, v10_at, Ideal.mulf_def, Ideal.hostUnary_log_def]

/-- The closing concatenate of the three rows, each given a leading unit axis, is the shared stacking. -/
theorem v21_eq_stack3 (x0 : FVec Ideal SX .f32) (x1 : IVec SB 32) :
    val_main_v21 (F := Ideal) x0 x1
      = stack3 (val_main_v13 (F := Ideal) x0 x1) (val_main_v14 (F := Ideal) x0 x1) (val_main_v17 (F := Ideal) x0) := by
  unfold val_main_v21 val_main_v18 val_main_v19 val_main_v20 Cert.TakeAlong.stack3
  rfl

/-- The reference's result is the three rows stacked. -/
theorem ref_result (m : (ℓ : Loc nD τ sig) → Buf (Elt Ideal) ℓ) (c : Dev nD) :
    Cert.ReferenceIdeal.ValueP.res_out0 (F := Ideal) m c
      = stack3 (val_main_v13 (F := Ideal) (m ((c.tc : Thread nD τ).loc main_arg0)) (m ((c.tc : Thread nD τ).loc main_arg1)))
          (val_main_v14 (F := Ideal) (m ((c.tc : Thread nD τ).loc main_arg0)) (m ((c.tc : Thread nD τ).loc main_arg1)))
          (val_main_v17 (F := Ideal) (m ((c.tc : Thread nD τ).loc main_arg0))) :=
  (val_main_v21_eq (F := Ideal) m c).trans (v21_eq_stack3 _ _)

end Cert.RefRows

end
-- ==== Proof.PreFacts.lean ====
/-
  What the precondition says, entry by entry. The printed predicate is a conjunction of two reductions by `and`:
  over the whole [4096, 32000] array, that each entry's absolute value is below +inf; and over the 4096 indices,
  that each index, 32000 added to it when it is below zero, lies in [0, 31999]. When the predicate is all ones,
  every entry of the logits is a real number (neither infinity) and every index passes the range test.
-/
import proofs.«420277_j18923625906267_3_alg».proof.Pre_finite_inputs
import proofs.«420277_j18923625906267_3_alg».proof.Proof.Gen.Pre_finite_inputs
import proofs.«420277_j18923625906267_3_alg».proof.Proof.TakeAlong
import Idealize.ShloMosaic.Lib.ReduceAll
import Idealize.ShloMosaic.Lib.ValueIdx
import Idealize.ShloMosaic.Lib.Pipeline.Value
import Idealize.ShloMosaic.PureOps.Ideal.Laws

noncomputable section

namespace Cert.PreFacts

open Idealize.ShloMosaic Idealize.ShloMosaic.ValueIdx

/-- The scalar shape has exactly one index. -/
local instance : Subsingleton Cert.Pre_finite_inputs.S_.Idx := ⟨fun a b => funext fun d => d.elim0⟩

/-- The pattern with exponent field all ones and fraction zero, sign clear, denotes +∞. -/
private theorem ofBits_posInf : Ideal.ofBits .f32 0x7F800000#32 = ⊤ := by simp [Ideal.ofBits, Ideal.ieee]

/-- An extended real whose absolute value `max a (-a)` lies strictly below +∞ is a real number:
    at `⊤` the maximum is `⊤`, and at `⊥` the negation is `⊤`, so in both cases the maximum is `⊤`. -/
private theorem real_of_abs_lt_top (a : EReal) (h : max a (-a) < ⊤) : a ≠ ⊥ ∧ a ≠ ⊤ := by
  constructor
  · rintro rfl
    simp at h
  · rintro rfl
    simp at h

/-- A one-bit word made from a Boolean is 1 exactly when the Boolean is true. -/
private theorem ofBool_eq_one (b : Bool) : BitVec.ofBool b = 1#1 ↔ b = true := by cases b <;> decide

/-- Under the precondition every entry of the logits is a real number. -/
theorem finite_of_pre (x0 : FVec Ideal Cert.TakeAlong.SX .f32) (x1 : IVec Cert.TakeAlong.SB 32)
    (h : Cert.Pre_finite_inputs.fn (F := Ideal) x0 x1 = fun _ => 1#1) (s : Cert.TakeAlong.SX.Idx) :
    x0 s ≠ ⊥ ∧ x0 s ≠ ⊤ := by
  -- the predicate at its one index is the `and` of the two reductions; the first of them is 1
  have e := congrFun h ix0
  dsimp only [Cert.Pre_finite_inputs.fn] at e
  change IntOp.andi _ _ = 1#1 at e
  obtain ⟨e1, -⟩ := IntOp.andi_eq_one.1 e
  -- a reduction by `and` over all axes that is 1 met a 1 at every index: the comparison holds at `s`
  have k := Host.reduce_andi_all _ _ _ _ _ e1 s
  -- there the comparison reads |x0 s| < +∞ on the extended reals
  change Ideal.cmp .olt (max (x0 s) (-(x0 s))) (Ideal.ofBits .f32 0x7F800000#32) = 1#1 at k
  rw [ofBits_posInf] at k
  simp only [Ideal.cmp, ofBool_eq_one, decide_eq_true_eq] at k
  exact real_of_abs_lt_top _ k

/-- Under the precondition every index passes the range test. -/
theorem inRange_of_pre (x0 : FVec Ideal Cert.TakeAlong.SX .f32) (x1 : IVec Cert.TakeAlong.SB 32)
    (h : Cert.Pre_finite_inputs.fn (F := Ideal) x0 x1 = fun _ => 1#1) (i : Fin 4096) :
    Cert.TakeAlong.inRange (x1 (ix1 i)) = 1#1 := by
  -- the second of the two reductions is 1
  have e := congrFun h ix0
  dsimp only [Cert.Pre_finite_inputs.fn] at e
  change IntOp.andi _ _ = 1#1 at e
  obtain ⟨-, e2⟩ := IntOp.andi_eq_one.1 e
  -- so the test array is 1 at index `i`; read at that index, the array's operations are the word operations of
  -- `inRange` on the `i`-th index word, and each broadcast constant is its literal
  exact Host.reduce_andi_all _ _ _ _ _ e2 (ix1 i)

end Cert.PreFacts

end
-- ==== Proof.lean ====
/-
  The certificate's proof. The kernel keeps, per row of the [4096, 32000] logits, the reciprocal of the sum of the
  shifted exponentials as a factor and the logarithm of that sum as a subtrahend, and forms the probability of the
  row's indexed entry, its logarithm, and the row's sum of p log p in (row, 1)-sized arithmetic; the reference forms
  the whole softmax, indexes it, and takes logarithms of the quotients. Both read the indexed entry through the same
  chain of host operations (a negative index counts from the end of the axis; an out-of-range one gives a fill
  value), the kernel on the logits, the reference on the probabilities. Under the precondition — every logit finite,
  every index in range once read that way — each row's three statistics agree in the two spellings
  (Proof/RowLaw.lean), the chain reads the same column on both sides (Proof/TakeAlong.lean), and both programs stack
  the three rows of results the same way: the results are equal entry by entry. The three frames: the two kernel
  programs' by the region's launch with the body's one whole-block store as proof data (Proof/KFrame.lean,
  Proof/KIFrame.lean), the reference's by its run read back (Proof/RefRun.lean). The idealization rewrote nothing, so
  `preserves` has nothing to state.
-/
import proofs.«420277_j18923625906267_3_alg».proof.Defs
import proofs.«420277_j18923625906267_3_alg».proof.Proof.Gen.Kernel
import proofs.«420277_j18923625906267_3_alg».proof.Proof.Gen.KernelIdeal
import proofs.«420277_j18923625906267_3_alg».proof.Proof.Gen.ReferenceIdeal
import proofs.«420277_j18923625906267_3_alg».proof.Proof.Gen.Pre_finite_inputs
import proofs.«420277_j18923625906267_3_alg».proof.Proof.KFrame
import proofs.«420277_j18923625906267_3_alg».proof.Proof.KIFrame
import proofs.«420277_j18923625906267_3_alg».proof.Proof.KIValue
import proofs.«420277_j18923625906267_3_alg».proof.Proof.RefRun
import proofs.«420277_j18923625906267_3_alg».proof.Proof.RefRead
import proofs.«420277_j18923625906267_3_alg».proof.Proof.RefRows
import proofs.«420277_j18923625906267_3_alg».proof.Proof.RowLaw
import proofs.«420277_j18923625906267_3_alg».proof.Proof.TakeAlong
import proofs.«420277_j18923625906267_3_alg».proof.Proof.PreFacts
import Idealize.ShloMosaic.Adequacy
import Idealize.ShloMosaic.Init

noncomputable section

namespace Cert.Proof

open Idealize.ShloMosaic Idealize.ShloMosaic.ValueIdx Idealize.SL.Sem
open Cert.TakeAlong (SX SB ST rowOf stack3 takeAlong ixOf col inRange)
open Cert.KernelIdeal.HandValue (Gout colOf)

/-- Under the precondition's two facts, the three columns the kernel's region leaves — over the logits `x0` and the
    column gathered from them along the indices `x1` — are the reference's three result rows. -/
theorem rows_eq (x0 : FVec Ideal SX .f32) (x1 : IVec SB 32) (hfin : ∀ s, x0 s ≠ ⊥ ∧ x0 s ≠ ⊤)
    (hin : ∀ i : Fin 4096, inRange (x1 (ix1 i)) = 1#1) :
    colOf (Gout x0 (takeAlong (F := Ideal) x0 (shapeCast ST x1 Cert.TakeAlong.shapeCasts_SB_ST))) 0
        = Cert.ReferenceIdeal.ReadP.val_main_v13 (F := Ideal) x0 x1
      ∧ colOf (Gout x0 (takeAlong (F := Ideal) x0 (shapeCast ST x1 Cert.TakeAlong.shapeCasts_SB_ST))) 1
        = Cert.ReferenceIdeal.ReadP.val_main_v14 (F := Ideal) x0 x1
      ∧ colOf (Gout x0 (takeAlong (F := Ideal) x0 (shapeCast ST x1 Cert.TakeAlong.shapeCasts_SB_ST))) 2
        = Cert.ReferenceIdeal.ReadP.val_main_v17 (F := Ideal) x0 := by
  rw [Cert.TakeAlong.shapeCast_eq_ixOf]
  have hrow : ∀ i : Fin 4096, Cert.RowLaw.Finite (rowOf x0 i) := fun i k => hfin _
  have hL : ∀ i : Fin 4096, takeAlong (F := Ideal) x0 (ixOf x1) (ix2 i (0 : Fin 1)) = rowOf x0 i (col x1 i) :=
    fun i => Cert.TakeAlong.takeAlong_apply x0 x1 i (hin i)
  refine ⟨funext fun j => ?_, funext fun j => ?_, funext fun j => ?_⟩ <;>
    obtain ⟨i, rfl⟩ : ∃ i : Fin 4096, j = ix1 i := ⟨j 0, eq_ix1 j⟩
  · rw [Cert.KernelIdeal.HandValue.colOf_apply, Cert.KernelIdeal.HandValue.Gout_pdf, hL,
      Cert.RowLaw.kpdf_eq (by decide) _ (hrow _), Cert.RefRows.ref_pdf x0 x1 _ (hin _)]
  · rw [Cert.KernelIdeal.HandValue.colOf_apply, Cert.KernelIdeal.HandValue.Gout_logp, hL,
      Cert.RowLaw.klogp_eq (by decide) _ (hrow _), Cert.RefRows.ref_logp x0 x1 _ (hin _)]
  · rw [Cert.KernelIdeal.HandValue.colOf_apply, Cert.KernelIdeal.HandValue.Gout_ent,
      Cert.RowLaw.kent_eq (by decide) _ (hrow _), Cert.RefRows.ref_ent x0]

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments, both idealized programs run, and end with the same [3, 4096] result: the
    reference's three rows stacked. -/
theorem algebraic : Cert.algebraic_KernelIdeal_ReferenceIdeal := by
  intro m ρ m' ρ' hpre hagree
  refine ⟨fun c => stack3
      (Cert.ReferenceIdeal.ReadP.val_main_v13 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.ReadP.val_main_v14 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.ReferenceIdeal.ReadP.val_main_v17 (F := Ideal) (m ((c.tc : Thread Cert.KernelIdeal.nD Cert.KernelIdeal.τ).loc Cert.KernelIdeal.main_arg0))), ?_, ?_⟩
  · refine (θ_run Cert.KernelIdeal.defs _ _).mono (fun r h c => ⟨(h c).1.trans ?_, (h c).2⟩)
      (Cert.KernelIdeal.HandValue.run_value m ρ)
    obtain ⟨e0, e1, e2⟩ := rows_eq (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun s => Cert.PreFacts.finite_of_pre _ _ (hpre c) s) (fun i => Cert.PreFacts.inRange_of_pre _ _ (hpre c) i)
    rw [Cert.KernelIdeal.HandValue.Larr_eq,
      show Cert.KernelIdeal.HandValue.Xarr m c = m ((c.tc : Thread Cert.KernelIdeal.nD Cert.KernelIdeal.τ).loc Cert.KernelIdeal.main_arg0)
        from Cert.KernelIdeal.Hand.V_main_arg0 m c, e0, e1, e2]
  · refine (θ_run Cert.ReferenceIdeal.defs _ _).mono (fun r h c => ⟨(h c).1.trans ?_, (h c).2⟩)
      (Cert.ReferenceIdeal.ValueP.run (F := Ideal) m' ρ')
    rw [show Cert.ReferenceIdeal.ValueP.res_main_v21 m' c = Cert.ReferenceIdeal.ValueP.res_out0 (F := Ideal) m' c from rfl,
      Cert.RefRows.ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
